-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel

variable [Facts]

def fn {F : FTy → Type} [FloatOps F] (main_arg0 : FVec F S8x4096x2048 .f32) (main_arg1 : FVec F S8x4096x2048 .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S8x4096x2048 .f32 := Host.absf main_arg1
  let main_cst_0 : FVec F S_ .f32 := constant S_ .f32 0x7F800000#32
  let main_v5 : FVec F S8x4096x2048 .f32 := broadcastInDim S8x4096x2048 ![] bcast_S_S8x4096x2048 main_cst_0
  let main_v6 : IVec S8x4096x2048 1 := cmpf .olt main_v4 main_v5
  let main_c_1 : IVec S_ 1 := constantI S_ 1 1#1
  let main_v7 : IVec S_ 1 := (fun x v => Host.reduce IntOp.andi x v reducesTo_S8x4096x2048_S_d0_1_2 h_S_) main_v6 main_c_1
  let main_v8 : IVec S_ 1 := andi main_v3 main_v7
  main_v8
-- ==== Kernel.lean ====
abbrev S8x4096x2048 : Shape := ⟨3, ![8, 4096, 2048]⟩
abbrev S32768x2048 : Shape := ⟨2, ![32768, 2048]⟩
abbrev S512x2048 : Shape := ⟨2, ![512, 2048]⟩

abbrev nBuf : Space → Nat
  | .hbm => 6
  | .vmem => 6
  | .smem => 0
  | _ => 0

abbrev bufTy : (tb : Table) → Fin (tcTables nBuf tb) → BufTy
  | .hbm, ⟨0, _⟩ => ⟨S8x4096x2048, .f32⟩
  | .hbm, ⟨1, _⟩ => ⟨S8x4096x2048, .f32⟩
  | .hbm, ⟨2, _⟩ => ⟨S32768x2048, .f32⟩
  | .hbm, ⟨3, _⟩ => ⟨S32768x2048, .f32⟩
  | .hbm, ⟨4, _⟩ => ⟨S32768x2048, .f32⟩
  | .hbm, ⟨5, _⟩ => ⟨S8x4096x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x4096x2048_S32768x2048 : S8x4096x2048.ShapeCasts S32768x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  shapeCasts_S32768x2048_S8x4096x2048 : S32768x2048.ShapeCasts S8x4096x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S32768x2048.size a
  hwx0_0 : ∀ i : grid0.Coords, EltTy.bits .f32 = 32 ∨ (Rect.block (s := S32768x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S32768x2048.size a
  hwx0_1 : ∀ i : grid0.Coords, EltTy.bits .f32 = 32 ∨ (Rect.block (s := S32768x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S32768x2048.size a
  hwx0_2 : ∀ i : grid0.Coords, EltTy.bits .f32 = 32 ∨ (Rect.block (s := S32768x2048) S512x2048.size (cc0_transform_2 i) (hinb0_2 i)).WholeWords (EltTy.packing .f32)

variable [Facts₀]

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S8x4096x2048 : Shape := ⟨3, ![8, 4096, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x4096x2048, .f32⟩
  | .hbm, ⟨2, _⟩ => ⟨S_, .f32⟩
  | .hbm, ⟨3, _⟩ => ⟨S8x4096x2048, .f32⟩
  | .hbm, ⟨4, _⟩ => ⟨S8x4096x2048, .f32⟩
  | .hbm, ⟨5, _⟩ => ⟨S_, .f32⟩
  | .hbm, ⟨6, _⟩ => ⟨S8x4096x2048, .f32⟩
  | .hbm, ⟨7, _⟩ => ⟨S8x4096x2048, .f32⟩
  | .hbm, ⟨8, _⟩ => ⟨S8x4096x2048, .f32⟩
  | .hbm, ⟨9, _⟩ => ⟨S8x4096x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S_S8x4096x2048 : S_.BroadcastsInDim S8x4096x2048 (![] : Fin 0 → Fin S8x4096x2048.rank)

variable [Facts₀]

class Facts : Prop extends Facts₀ where

variable [Facts]
-- ==== Proof.Spec.lean ====
/-
  The mathematics of the stochastic-dropout sampling step, apart from any program.

  Every output element is the activation times a lognormal multiplier of the noise:
  `out = x · exp(-σ²/2 + σ·e)` with `σ = 1/2`, so the bias is `-1/8`; both constants are exact binary
  fractions, written here by their f32 patterns. An element depends on the SAME position of the two inputs
  and on nothing else, so the map commutes with every re-indexing of the arrays: in particular, flattening
  the leading two axes, applying the map on the flat arrays, and restoring the axes is the map itself.
-/
import Idealize.ShloMosaic.PureOps.Ideal
import Idealize.ShloMosaic.PureOps.Vector
import Idealize.ShloMosaic.Lib.Pipeline.Value

noncomputable section

namespace Cert.Sampling

open Idealize.ShloMosaic

/-- One output element on the extended reals: `x · exp(-1/8 + (1/2)·e)`. -/
def scaled (x e : EReal) : EReal :=
  x * Ideal.exp (Ideal.ofBits .f32 0xBE000000#32 + Ideal.ofBits .f32 0x3F000000#32 * e)

/-- The whole output: `scaled` position by position, over any shape. -/
def scaledAll {s : Shape} (x e : s.Idx → EReal) : s.Idx → EReal := fun i => scaled (x i) (e i)

theorem scaledAll_apply {s : Shape} (x e : s.Idx → EReal) (i : s.Idx) : scaledAll x e i = scaled (x i) (e i) := rfl

/-- The position-by-position map commutes with a change of shape: re-lay both inputs in row-major order under
    another shape, apply the map there, and re-lay the result under the first shape — that is the map on the
    inputs as they were, because the two re-layings are inverse bijections of the positions. -/
theorem scaledAll_relaid {s t : Shape} (x e : s.Idx → EReal) (h : s.ShapeCasts t) (h' : t.ShapeCasts s) :
    shapeCast s (scaledAll (shapeCast t x h) (shapeCast t e h)) h' = scaledAll x e := by
  funext i
  exact congrArg₂ scaled (congrFun (shapeCast_shapeCast x h h') i) (congrFun (shapeCast_shapeCast e h h') i)

end Cert.Sampling

end
-- ==== Proof.KernelValue.lean ====
/-
  What the row-tiled kernel leaves in its result, as one function of its two arguments.

  The program flattens both [8, 4096, 2048] arguments to [32768, 2048], runs the body on 64 tiles of 512 full rows
  (tile `t` is rows `512·t … 512·t + 511`, all 2048 columns, for the activations, the noise and the output alike),
  and restores the three axes. The body is position by position: on a tile it computes `scaled` of the activation
  tile and the noise tile. So tile `t` of the flat output is tile `t` of `scaledAll` of the flat arguments; the
  64 tiles cover every row (row `r` lies in tile `r / 512`), so the flat output IS `scaledAll` of the flat
  arguments, whatever the output buffer held before (it starts as a copy of the flat activations, every entry of
  which is overwritten); and restoring the axes gives `scaledAll` of the arguments themselves, because the map
  commutes with re-laying (`scaledAll_relaid`).
-/
import proofs.«415175_j70832600646053_3_alg».proof.Proof.Gen.KernelIdeal.Frame
import proofs.«415175_j70832600646053_3_alg».proof.Proof.Spec
import Idealize.ShloMosaic.Lib.Pipeline.Value
import Idealize.ShloMosaic.Lib.StableHlo.Run

set_option maxRecDepth 16384

noncomputable section

namespace Cert.KernelIdeal.RowTiles

open Cert.KernelIdeal Cert.KernelIdeal.Gen Idealize.ShloMosaic Idealize.ShloMosaic.TcCoe Idealize.SL.Sem
open Idealize.ShloMosaic.Pipeline (Dat)
open Cert.Sampling

variable (m : (ℓ : Loc nD τ sig) → Buf (Elt Ideal) ℓ) (ρ : Dev nD → PrngReg)

/-! ## One tile -/

theorem origin : (![0, 0] : Fin 2 → Nat) = fun _ => 0 := funext fun a => by fin_cases a <;> rfl

/-- The body's stored value on a tile: `scaled` of the activation tile and the noise tile, position by position
    (the two same-shape casts are the identity; the two constants are splatted). -/
theorem tile_eq (e x : Vec Ideal S512x2048 .f32) : k0_pay1 (F := Ideal) e x = scaledAll x e := by
  unfold k0_pay1
  simp only [shapeCast_self]
  rfl

/-- The three index maps are the same: tile `t` starts at row-block `t`, column-block `0`. -/
theorem tile_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What tile `t` writes back is tile `t` of `scaledAll` of the flat arguments. -/
theorem written_eq (c : Dev nD) (t : Fin cfg0.N) :
    (dats m 0 c).flushed 2 t = ((cfg0.win 2).blk t).view.read (Elt Ideal) (scaledAll (V m c main_v0) (V m c main_v1)) := by
  show (cfg0.win 2).cut (grid0.coords t) ((dats m 0 c).after 2 t) = _
  rw [after0_2]
  unfold out0_2
  rw [View.canon_unit_zero origin]
  simp only [View.ld_unit_zero (S := S512x2048) origin]
  rw [tile_eq]
  obtain ⟨e0, e1, e2, e3, e4, e5⟩ := tile_index t
  funext j
  show scaled (V m c main_v0 (((cfg0.win 0).blk t).view.emb j)) (V m c main_v1 (((cfg0.win 1).blk t).view.emb j))
    = scaled (V m c main_v0 (((cfg0.win 2).blk t).view.emb j)) (V m c main_v1 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 2048 + 1 * (j 1).val = win0_2.index t (1 : Fin 2) * 2048 + 1 * (j 1).val; omega
  have h1 : ((cfg0.win 1).blk t).view.emb j = ((cfg0.win 2).blk t).view.emb j := by
    funext a; apply Fin.ext
    match a with
    | ⟨0, _⟩ => show win0_1.index t (0 : Fin 2) * 512 + 1 * (j 0).val = win0_2.index t (0 : Fin 2) * 512 + 1 * (j 0).val; omega
    | ⟨1, _⟩ => show win0_1.index t (1 : Fin 2) * 2048 + 1 * (j 1).val = win0_2.index t (1 : Fin 2) * 2048 + 1 * (j 1).val; omega
  rw [h0, h1]

/-! ## The tiles cover the flat output -/

/-- A position of the flat output is in tile `t` iff its row is among the tile's 512 rows (and its column among all 2048). -/
theorem mem_tile (t : Fin cfg0.N) (i : S32768x2048.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v2).slice (win0_2.rect t)).set ↔ _
  rw [View.set_slice_whole, Rect.mem_set_unit]
  exact Iff.rfl

/-- Every position is in some tile: row `r` in tile `r / 512`. -/
theorem covered (i : S32768x2048.Idx) :
    ∃ t : Fin cfg0.N, (cfg0.win 2).flush t = true ∧ i ∈ ((cfg0.win 2).blk t).view.set := by
  have hi0 : (i 0).val < 32768 := (i 0).isLt
  have hi1 : (i 1).val < 2048 := (i 1).isLt
  have hN : (i 0).val / 512 < cfg0.N := by rw [show cfg0.N = 64 from N_0]; omega
  obtain ⟨-, -, -, -, e4, e5⟩ := tile_index ⟨(i 0).val / 512, hN⟩
  refine ⟨⟨(i 0).val / 512, hN⟩, flush0_2 _, ?_⟩
  rw [mem_tile]
  intro a
  match a with
  | ⟨0, _⟩ =>
    show win0_2.index ⟨(i 0).val / 512, hN⟩ (0 : Fin 2) * 512 ≤ (i 0).val ∧ (i 0).val < win0_2.index ⟨(i 0).val / 512, hN⟩ (0 : Fin 2) * 512 + 512
    rw [e4]; show (i 0).val / 512 * 512 ≤ (i 0).val ∧ (i 0).val < (i 0).val / 512 * 512 + 512; omega
  | ⟨1, _⟩ =>
    show win0_2.index ⟨(i 0).val / 512, hN⟩ (1 : Fin 2) * 2048 ≤ (i 1).val ∧ (i 1).val < win0_2.index ⟨(i 0).val / 512, hN⟩ (1 : Fin 2) * 2048 + 2048
    rw [e5]; omega

/-- The flat output after the run is `scaledAll` of the flat arguments. -/
theorem flat_out (c : Dev nD) : (dats m 0 c).arrAt 2 cfg0.N = scaledAll (V m c main_v0) (V m c main_v1) :=
  (dats m 0 c).arrAt_eq_of_cover 2 _ (fun t _ => written_eq m c t) covered

/-! ## Flattening before, restoring after -/

/-- The flat activations the tiles read: the first argument re-laid under [32768, 2048]. -/
theorem flat_x (c : Dev nD) : (V m c main_v0 : S32768x2048.Idx → EReal)
    = shapeCast S32768x2048 (m ((c : Thread nD τ).loc main_arg0)) shapeCasts_S8x4096x2048_S32768x2048 := by
  show StableHlo.after hostOps0 (fun b => m (c, b)) (Proc.devRef .tc main_v0) = _
  after_results
  rfl

/-- The flat noise: the second argument re-laid the same way. -/
theorem flat_e (c : Dev nD) : (V m c main_v1 : S32768x2048.Idx → EReal)
    = shapeCast S32768x2048 (m ((c : Thread nD τ).loc main_arg1)) shapeCasts_S8x4096x2048_S32768x2048 := by
  show StableHlo.after hostOps0 (fun b => m (c, b)) (Proc.devRef .tc main_v1) = _
  after_results
  rfl

/-- The program's result: the flat output re-laid under [8, 4096, 2048]. -/
theorem restored (c : Dev nD) :
    (Pipeline.afterTail₀ cfgs (dats m) 0 (V0 m) [hostOps1] c main_v3 : S8x4096x2048.Idx → EReal)
      = shapeCast S8x4096x2048 ((dats m 0 c).arrAt 2 cfg0.N) shapeCasts_S32768x2048_S8x4096x2048 := by
  unfold Pipeline.afterTail₀
  show StableHlo.after hostOps1 _ (Proc.devRef .tc main_v3) = _
  after_results
  exact congrArg (fun A : S32768x2048.Idx → EReal => shapeCast S8x4096x2048 A shapeCasts_S32768x2048_S8x4096x2048)
    (Pipeline.withArrays_arr spec0 launch0.win.arr_inj c (V0 m c) (fun w => (dats m 0 c).arrAt w cfg0.N) 2)

/-- The program's result is `scaledAll` of its two arguments: flatten, apply tile by tile, restore. -/
theorem result_eq (c : Dev nD) :
    (Pipeline.afterTail₀ cfgs (dats m) 0 (V0 m) [hostOps1] c main_v3 : S8x4096x2048.Idx → EReal)
      = scaledAll (m ((c : Thread nD τ).loc main_arg0)) (m ((c : Thread nD τ).loc main_arg1)) := by
  rw [restored, flat_out, flat_x, flat_e]
  exact scaledAll_relaid _ _ _ _

/-! ## The run -/

/-- Every weakly fair execution of the program terminates with its result at `scaledAll` of the arguments as
    launched, and the arguments unchanged. -/
theorem run : θ_run defs (onTc (τ := τ) (main (F := Ideal))) ⟨m, fun _ => 0, ρ⟩ fun r => ∀ c : Dev nD,
      r.2.mem ((c.tc : Thread nD τ).loc main_v3) = scaledAll (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v3 (Pipeline.mem_restRefs_of main_v3 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.RowTiles

end
-- ==== Proof.RefValue.lean ====
/-
  The reference computes the same map directly on the [8, 4096, 2048] arrays: the noise times the splatted
  `1/2`, plus the splatted `-1/8`, exponentiated, times the activations — position by position, that is
  `scaled` of the two arguments at that position. The host's exponential and the kernel's are one function on the
  extended reals, and the two constants are the same patterns on both sides, so nothing is evaluated.
-/
import proofs.«415175_j70832600646053_3_alg».proof.Proof.Gen.ReferenceIdeal.Read
import proofs.«415175_j70832600646053_3_alg».proof.Proof.Spec

noncomputable section

namespace Cert.ReferenceIdeal.Whole

open Cert.ReferenceIdeal Cert.ReferenceIdeal.Gen Idealize.ShloMosaic
open Cert.Sampling

/-- The reference's last stage is `scaledAll` of its two arguments. -/
theorem stage_eq (x e : S8x4096x2048.Idx → EReal) :
    Cert.ReferenceIdeal.Read.val_main_v5 (F := Ideal) x e = scaledAll x e := by
  funext i
  rw [Read.val_main_v5_apply, Read.val_main_v4_apply, Read.val_main_v3_apply, Read.val_main_v2_apply,
    Read.val_main_cst_0_apply, Read.val_main_v1_apply, Read.val_main_v0_apply, Read.val_main_cst_apply]
  rfl

end Cert.ReferenceIdeal.Whole

end
-- ==== Proof.lean ====
/-
  Stochastic-dropout sampling, `out = x · exp(-1/8 + (1/2)·e)` over f32[8, 4096, 2048]: a row-tiled kernel
  against the same expression written on whole arrays.

  Both programs compute, at every position, `scaled` of the two arguments at that position (Proof/Spec.lean): the
  same two constants, the same order of the product, the sum, the exponential and the final product, and on the
  extended reals the kernel's exponential and the host's are one function. The kernel differs only in layout: it
  flattens the leading two axes, works on 64 tiles of 512 full rows that together cover the flat array, and restores
  the axes; a position-by-position map commutes with all of that (Proof/KernelValue.lean). The reference is the map
  as written (Proof/RefValue.lean). No law of arithmetic is used, so the inputs' finiteness is never opened.

  The kernel's output buffer starts as a copy of the flat activations; every entry is overwritten by some tile, so
  the copy leaves no trace in the result, and the arguments themselves are never written.
-/
import proofs.«415175_j70832600646053_3_alg».proof.Defs
import proofs.«415175_j70832600646053_3_alg».proof.Proof.Gen.Kernel
import proofs.«415175_j70832600646053_3_alg».proof.Proof.Gen.Kernel.Skeleton
import proofs.«415175_j70832600646053_3_alg».proof.Proof.Gen.Kernel.Launch
import proofs.«415175_j70832600646053_3_alg».proof.Proof.Gen.Kernel.Points
import proofs.«415175_j70832600646053_3_alg».proof.Proof.Gen.Kernel.Frame
import proofs.«415175_j70832600646053_3_alg».proof.Proof.Gen.KernelIdeal
import proofs.«415175_j70832600646053_3_alg».proof.Proof.Gen.KernelIdeal.Skeleton
import proofs.«415175_j70832600646053_3_alg».proof.Proof.Gen.KernelIdeal.Launch
import proofs.«415175_j70832600646053_3_alg».proof.Proof.Gen.KernelIdeal.Points
import proofs.«415175_j70832600646053_3_alg».proof.Proof.Gen.KernelIdeal.Frame
import proofs.«415175_j70832600646053_3_alg».proof.Proof.Gen.ReferenceIdeal
import proofs.«415175_j70832600646053_3_alg».proof.Proof.Gen.ReferenceIdeal.Run
import proofs.«415175_j70832600646053_3_alg».proof.Proof.Gen.ReferenceIdeal.Read
import proofs.«415175_j70832600646053_3_alg».proof.Proof.Gen.Pre_finite_inputs
import proofs.«415175_j70832600646053_3_alg».proof.Proof.Spec
import proofs.«415175_j70832600646053_3_alg».proof.Proof.KernelValue
import proofs.«415175_j70832600646053_3_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel's reading on the extended reals rewrote nothing. -/
theorem preserves : Cert.preserves_Kernel_KernelIdeal := trivial

/-- From arguments that agree, both programs end at `scaledAll` of those arguments. -/
theorem algebraic : Cert.algebraic_KernelIdeal_ReferenceIdeal := by
  intro m ρ m' ρ' _ hagree
  refine ⟨fun c => Cert.Sampling.scaledAll (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.RowTiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.Whole.stage_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
